-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S65536x256 : Shape := ⟨2, ![65536, 256]⟩
abbrev S65536 : Shape := ⟨1, ![65536]⟩
abbrev S256x768 : Shape := ⟨2, ![256, 768]⟩
abbrev S256 : Shape := ⟨1, ![256]⟩
abbrev S256x512 : Shape := ⟨2, ![256, 512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S65536x256 : S_.BroadcastsInDim S65536x256 (![] : Fin 0 → Fin S65536x256.rank)
  reducesTo_S65536x256_S_d0_1 : S65536x256.ReducesTo [0, 1] S_
  bcast_S_S65536 : S_.BroadcastsInDim S65536 (![] : Fin 0 → Fin S65536.rank)
  reducesTo_S65536_S_d0 : S65536.ReducesTo [0] S_
  bcast_S_S256x768 : S_.BroadcastsInDim S256x768 (![] : Fin 0 → Fin S256x768.rank)
  reducesTo_S256x768_S_d0_1 : S256x768.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_

variable [Facts]

def fn_part2 {F : FTy → Type} [FloatOps F] (main_arg7 : FVec F S256x512 .f32) (main_arg8 : FVec F S256 .f32) (main_v33 : IVec S_ 1) : IVec S_ 1 :=
  let main_v34 : FVec F S256x512 .f32 := Host.absf main_arg7
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg4 : FVec F S256 .f32) (main_arg5 : FVec F S256x768 .f32) (main_arg6 : FVec F S256 .f32) (main_arg7 : FVec F S256x512 .f32) (main_arg8 : FVec F S256 .f32) (main_v13 : IVec S_ 1) (main_v16 : IVec S256x768 1) : IVec S_ 1 :=
  let main_c_5 : IVec S_ 1 := constantI S_ 1 1#1
  let main_v17 : IVec S_ 1 := (fun x v => Host.reduce IntOp.andi x v reducesTo_S256x768_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x768 .f32 := Host.absf main_arg5
  let main_cst_8 : FVec F S_ .f32 := constant S_ .f32 0x7F800000#32
  let main_v25 : FVec F S256x768 .f32 := broadcastInDim S256x768 ![] bcast_S_S256x768 main_cst_8
  let main_v26 : IVec S256x768 1 := cmpf .olt main_v24 main_v25
  let main_c_9 : IVec S_ 1 := constantI S_ 1 1#1
  let main_v27 : IVec S_ 1 := (fun x v => Host.reduce IntOp.andi x v reducesTo_S256x768_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S65536x512 .f32) (main_arg1 : FVec F S65536x256 .f32) (main_arg2 : FVec F S65536 .f32) (main_arg3 : FVec F S256x768 .f32) (main_arg4 : FVec F S256 .f32) (main_arg5 : FVec F S256x768 .f32) (main_arg6 : FVec F S256 .f32) (main_arg7 : FVec F S256x512 .f32) (main_arg8 : FVec F S256 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S65536 .f32 := Host.absf main_arg2
  let main_cst_2 : FVec F S_ .f32 := constant S_ .f32 0x7F800000#32
  let main_v10 : FVec F S65536 .f32 := broadcastInDim S65536 ![] bcast_S_S65536 main_cst_2
  let main_v11 : IVec S65536 1 := cmpf .olt main_v9 main_v10
  let main_c_3 : IVec S_ 1 := constantI S_ 1 1#1
  let main_v12 : IVec S_ 1 := (fun x v => Host.reduce IntOp.andi x v reducesTo_S65536_S_d0 h_S_) main_v11 main_c_3
  let main_v13 : IVec S_ 1 := andi main_v8 main_v12
  let main_v14 : FVec F S256x768 .f32 := Host.absf main_arg3
  let main_cst_4 : FVec F S_ .f32 := constant S_ .f32 0x7F800000#32
  let main_v15 : FVec F S256x768 .f32 := broadcastInDim S256x768 ![] bcast_S_S256x768 main_cst_4
  let main_v16 : IVec S256x768 1 := cmpf .olt main_v14 main_v15
  fn_part1 (F := F) main_arg4 main_arg5 main_arg6 main_arg7 main_arg8 main_v13 main_v16
-- ==== Kernel.lean ====
abbrev S65536x512 : Shape := ⟨2, ![65536, 512]⟩
abbrev S65536x256 : Shape := ⟨2, ![65536, 256]⟩
abbrev S65536 : Shape := ⟨1, ![65536]⟩
abbrev S256x768 : Shape := ⟨2, ![256, 768]⟩
abbrev S256 : Shape := ⟨1, ![256]⟩
abbrev S256x512 : Shape := ⟨2, ![256, 512]⟩
abbrev S768x256 : Shape := ⟨2, ![768, 256]⟩
abbrev S512x256 : Shape := ⟨2, ![512, 256]⟩
abbrev S1x256 : Shape := ⟨2, ![1, 256]⟩
abbrev S65536x1 : Shape := ⟨2, ![65536, 1]⟩
abbrev S2048x512 : Shape := ⟨2, ![2048, 512]⟩
abbrev S2048x256 : Shape := ⟨2, ![2048, 256]⟩
abbrev S2048x1 : Shape := ⟨2, ![2048, 1]⟩
abbrev S2048x768 : Shape := ⟨2, ![2048, 768]⟩

abbrev nBuf : Space → Nat
  | .hbm => 17
  | .vmem => 14
  | .smem => 0
  | _ => 0

abbrev bufTy : (tb : Table) → Fin (tcTables nBuf tb) → BufTy
  | .hbm, ⟨0, _⟩ => ⟨S65536x512, .f32⟩
  | .hbm, ⟨1, _⟩ => ⟨S65536x256, .f32⟩
  | .hbm, ⟨2, _⟩ => ⟨S65536, .f32⟩
  | .hbm, ⟨3, _⟩ => ⟨S256x768, .f32⟩
  | .hbm, ⟨4, _⟩ => ⟨S256, .f32⟩
  | .hbm, ⟨5, _⟩ => ⟨S256x768, .f32⟩
  | .hbm, ⟨6, _⟩ => ⟨S256, .f32⟩
  | .hbm, ⟨7, _⟩ => ⟨S256x512, .f32⟩
  | .hbm, ⟨8, _⟩ => ⟨S256, .f32⟩
  | .hbm, ⟨9, _⟩ => ⟨S768x256, .f32⟩
  | .hbm, ⟨10, _⟩ => ⟨S768x256, .f32⟩
  | .hbm, ⟨11, _⟩ => ⟨S512x256, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S65536x1, .f32⟩
  | .hbm, ⟨16, _⟩ => ⟨S65536x256, .f32⟩
  | .local _ .vmem, ⟨0, _⟩ => ⟨S2048x512, .f32⟩
  | .local _ .vmem, ⟨1, _⟩ => ⟨S2048x512, .f32⟩
  | .local _ .vmem, ⟨2, _⟩ => ⟨S2048x256, .f32⟩
  | .local _ .vmem, ⟨3, _⟩ => ⟨S2048x256, .f32⟩
  | .local _ .vmem, ⟨4, _⟩ => ⟨S2048x1, .f32⟩
  | .local _ .vmem, ⟨5, _⟩ => ⟨S2048x1, .f32⟩
  | .local _ .vmem, ⟨6, _⟩ => ⟨S768x256, .f32⟩
  | .local _ .vmem, ⟨7, _⟩ => ⟨S1x256, .f32⟩
  | .local _ .vmem, ⟨8, _⟩ => ⟨S768x256, .f32⟩
  | .local _ .vmem, ⟨9, _⟩ => ⟨S1x256, .f32⟩
  | .local _ .vmem, ⟨10, _⟩ => ⟨S512x256, .f32⟩
  | .local _ .vmem, ⟨11, _⟩ => ⟨S1x256, .f32⟩
  | .local _ .vmem, ⟨12, _⟩ => ⟨S2048x256, .f32⟩
  | .local _ .vmem, ⟨13, _⟩ => ⟨S2048x256, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S256x768_S768x256_1_0 : S256x768.Transposes [1, 0] S768x256
  transposes_S256x512_S512x256_1_0 : S256x512.Transposes [1, 0] S512x256
  shapeCasts_S256_S1x256 : S256.ShapeCasts S1x256
  shapeCasts_S65536_S65536x1 : S65536.ShapeCasts S65536x1
  inb_S2048x512_S2048x512_0_0 : ∀ a, (![0, 0] : Fin 2 → Nat) a + S2048x512.size a ≤ S2048x512.size a
  h_S2048x512 : 0 < S2048x512.numel
  inb_S2048x256_S2048x256_0_0 : ∀ a, (![0, 0] : Fin 2 → Nat) a + S2048x256.size a ≤ S2048x256.size a
  h_S2048x256 : 0 < S2048x256.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  slices_S2048x512_o0_0_S2048x256 : S2048x512.Slices ![0, 0] S2048x256
  concatenates_S2048x512_S2048x256_S2048x768_d1 : Shape.Concatenates [S2048x512, S2048x256] S2048x768 1
  bitsLt_bf16_f32 : FTy.bits .bf16 < FTy.bits .f32
  inb_S768x256_S768x256_0_0 : ∀ a, (![0, 0] : Fin 2 → Nat) a + S768x256.size a ≤ S768x256.size a
  h_S768x256 : 0 < S768x256.numel
  shapeCasts_S768x256_S768x256 : S768x256.ShapeCasts S768x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  concatenates_S2048x256_S2048x256_S2048x512_d1 : Shape.Concatenates [S2048x256, S2048x256] S2048x512 1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  broadcasts_S2048x1_S2048x256 : S2048x1.Broadcasts S2048x256
  dot_S2048x768_S768x256_S2048x256_1_0_0_1_n_n_wf : DotDims.WF S2048x768 S768x256 S2048x256 [1] [0] [0] [1] [] []
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S65536x256.size a
  hwx0_1 : ∀ i : grid0.Coords, EltTy.bits .f32 = 32 ∨ (Rect.block (s := S65536x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S65536x1.size a
  hwx0_2 : ∀ i : grid0.Coords, EltTy.bits .f32 = 32 ∨ (Rect.block (s := S65536x1) S2048x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x256.size a ≤ S768x256.size a
  hwx0_3 : ∀ i : grid0.Coords, EltTy.bits .f32 = 32 ∨ (Rect.block (s := S768x256) S768x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x256.size a ≤ S768x256.size a
  hwx0_5 : ∀ i : grid0.Coords, EltTy.bits .f32 = 32 ∨ (Rect.block (s := S768x256) S768x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S512x256.size a
  hwx0_7 : ∀ i : grid0.Coords, EltTy.bits .f32 = 32 ∨ (Rect.block (s := S512x256) S512x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x256.size a ≤ S65536x256.size a
  hwx0_9 : ∀ i : grid0.Coords, EltTy.bits .f32 = 32 ∨ (Rect.block (s := S65536x256) S2048x256.size (cc0_transform_9 i) (hinb0_9 i)).WholeWords (EltTy.packing .f32)

variable [Facts₀]

def dot_S2048x768_S768x256_S2048x256_1_0_0_1_n_n : DotDims S2048x768 S768x256 S2048x256 where
  lhsContracting := [1]
  rhsContracting := [0]
  lhsNonContracting := [0]
  rhsNonContracting := [1]
  lhsBatch := []
  rhsBatch := []
  wf := dot_S2048x768_S768x256_S2048x256_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S768x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S768x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S512x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S2048x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S65536x512 : Shape := ⟨2, ![65536, 512]⟩
abbrev S65536x256 : Shape := ⟨2, ![65536, 256]⟩
abbrev S65536 : Shape := ⟨1, ![65536]⟩
abbrev S256x768 : Shape := ⟨2, ![256, 768]⟩
abbrev S256 : Shape := ⟨1, ![256]⟩
abbrev S256x512 : Shape := ⟨2, ![256, 512]⟩
abbrev S65536x768 : Shape := ⟨2, ![65536, 768]⟩
abbrev S768x256 : Shape := ⟨2, ![768, 256]⟩
abbrev S1x256 : Shape := ⟨2, ![1, 256]⟩
abbrev S_ : Shape := ⟨0, ![]⟩
abbrev S512x256 : Shape := ⟨2, ![512, 256]⟩
abbrev S65536x1 : Shape := ⟨2, ![65536, 1]⟩

abbrev nBuf : Space → Nat
  | .hbm => 54
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536x256, .f32⟩
  | .hbm, ⟨2, _⟩ => ⟨S65536, .f32⟩
  | .hbm, ⟨3, _⟩ => ⟨S256x768, .f32⟩
  | .hbm, ⟨4, _⟩ => ⟨S256, .f32⟩
  | .hbm, ⟨5, _⟩ => ⟨S256x768, .f32⟩
  | .hbm, ⟨6, _⟩ => ⟨S256, .f32⟩
  | .hbm, ⟨7, _⟩ => ⟨S256x512, .f32⟩
  | .hbm, ⟨8, _⟩ => ⟨S256, .f32⟩
  | .hbm, ⟨9, _⟩ => ⟨S65536x256, .f32⟩
  | .hbm, ⟨10, _⟩ => ⟨S65536x768, .f32⟩
  | .hbm, ⟨11, _⟩ => ⟨S768x256, .f32⟩
  | .hbm, ⟨12, _⟩ => ⟨S65536x256, .f32⟩
  | .hbm, ⟨13, _⟩ => ⟨S1x256, .f32⟩
  | .hbm, ⟨14, _⟩ => ⟨S65536x256, .f32⟩
  | .hbm, ⟨15, _⟩ => ⟨S65536x256, .f32⟩
  | .hbm, ⟨16, _⟩ => ⟨S65536x256, .f32⟩
  | .hbm, ⟨17, _⟩ => ⟨S65536x256, .f32⟩
  | .hbm, ⟨18, _⟩ => ⟨S_, .f32⟩
  | .hbm, ⟨19, _⟩ => ⟨S65536x256, .f32⟩
  | .hbm, ⟨20, _⟩ => ⟨S65536x256, .f32⟩
  | .hbm, ⟨21, _⟩ => ⟨S_, .f32⟩
  | .hbm, ⟨22, _⟩ => ⟨S65536x256, .f32⟩
  | .hbm, ⟨23, _⟩ => ⟨S65536x256, .f32⟩
  | .hbm, ⟨24, _⟩ => ⟨S768x256, .f32⟩
  | .hbm, ⟨25, _⟩ => ⟨S65536x256, .f32⟩
  | .hbm, ⟨26, _⟩ => ⟨S1x256, .f32⟩
  | .hbm, ⟨27, _⟩ => ⟨S65536x256, .f32⟩
  | .hbm, ⟨28, _⟩ => ⟨S65536x256, .f32⟩
  | .hbm, ⟨29, _⟩ => ⟨S65536x256, .f32⟩
  | .hbm, ⟨30, _⟩ => ⟨S65536x256, .f32⟩
  | .hbm, ⟨31, _⟩ => ⟨S_, .f32⟩
  | .hbm, ⟨32, _⟩ => ⟨S65536x256, .f32⟩
  | .hbm, ⟨33, _⟩ => ⟨S65536x256, .f32⟩
  | .hbm, ⟨34, _⟩ => ⟨S_, .f32⟩
  | .hbm, ⟨35, _⟩ => ⟨S65536x256, .f32⟩
  | .hbm, ⟨36, _⟩ => ⟨S65536x256, .f32⟩
  | .hbm, ⟨37, _⟩ => ⟨S65536x256, .f32⟩
  | .hbm, ⟨38, _⟩ => ⟨S65536x512, .f32⟩
  | .hbm, ⟨39, _⟩ => ⟨S512x256, .f32⟩
  | .hbm, ⟨40, _⟩ => ⟨S65536x256, .f32⟩
  | .hbm, ⟨41, _⟩ => ⟨S1x256, .f32⟩
  | .hbm, ⟨42, _⟩ => ⟨S65536x256, .f32⟩
  | .hbm, ⟨43, _⟩ => ⟨S65536x256, .f32⟩
  | .hbm, ⟨44, _⟩ => ⟨S65536x256, .f32⟩
  | .hbm, ⟨45, _⟩ => ⟨S65536x1, .f32⟩
  | .hbm, ⟨46, _⟩ => ⟨S65536x256, .f32⟩
  | .hbm, ⟨47, _⟩ => ⟨S65536x256, .f32⟩
  | .hbm, ⟨48, _⟩ => ⟨S_, .f32⟩
  | .hbm, ⟨49, _⟩ => ⟨S65536x256, .f32⟩
  | .hbm, ⟨50, _⟩ => ⟨S65536x256, .f32⟩
  | .hbm, ⟨51, _⟩ => ⟨S65536x256, .f32⟩
  | .hbm, ⟨52, _⟩ => ⟨S65536x256, .f32⟩
  | .hbm, ⟨53, _⟩ => ⟨S65536x256, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]

class Facts₀ : Prop where
  slices_S65536x512_S65536x256_0_0 : S65536x512.Slices ![0, 0] S65536x256
  concatenates_S65536x512_S65536x256_S65536x768_d1 : Shape.Concatenates [S65536x512, S65536x256] S65536x768 1
  transposes_S256x768_S768x256_1_0 : S256x768.Transposes [1, 0] S768x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  concatenates_S65536x256_S65536x256_S65536x512_d1 : Shape.Concatenates [S65536x256, S65536x256] S65536x512 1
  transposes_S256x512_S512x256_1_0 : S256x512.Transposes [1, 0] S512x256
  bcast_S65536_S65536x1_0 : S65536.BroadcastsInDim S65536x1 (![0] : Fin 1 → Fin S65536x1.rank)
  bcast_S65536x1_S65536x256_0_1 : S65536x1.BroadcastsInDim S65536x256 (![0, 1] : Fin 2 → Fin S65536x256.rank)
  dot_S65536x768_S768x256_S65536x256_1_0_0_1_n_n_wf : DotDims.WF S65536x768 S768x256 S65536x256 [1] [0] [0] [1] [] []
  dot_S65536x512_S512x256_S65536x256_1_0_0_1_n_n_wf : DotDims.WF S65536x512 S512x256 S65536x256 [1] [0] [0] [1] [] []

variable [Facts₀]

def dot_S65536x768_S768x256_S65536x256_1_0_0_1_n_n : DotDims S65536x768 S768x256 S65536x256 where
  lhsContracting := [1]
  rhsContracting := [0]
  lhsNonContracting := [0]
  rhsNonContracting := [1]
  lhsBatch := []
  rhsBatch := []
  wf := dot_S65536x768_S768x256_S65536x256_1_0_0_1_n_n_wf
def dot_S65536x512_S512x256_S65536x256_1_0_0_1_n_n : DotDims S65536x512 S512x256 S65536x256 where
  lhsContracting := [1]
  rhsContracting := [0]
  lhsNonContracting := [0]
  rhsNonContracting := [1]
  lhsBatch := []
  rhsBatch := []
  wf := dot_S65536x512_S512x256_S65536x256_1_0_0_1_n_n_wf

class Facts : Prop extends Facts₀ where

variable [Facts]
-- ==== Proof.Cell.lean ====
/-
  One row of the gated recurrent cell, over the extended reals.

  An output row depends on the same row of the input features, of the previous state and of the attention score, and on
  the whole weight matrices and biases. With x the 512 input features of the row, h its 256 previous-state entries and
  a its score, and every weight matrix indexed (output column, contracted column):

    joined  = [x | h]                                                  (768 entries)
    reset   = logistic (joined · W_r[q'] + b_r[q'])                    for each q'
    update  = logistic (joined · W_u[q]  + b_u[q])
    cand_in = [x[0..256) | reset * h]                                  (512 entries)
    cand    = tanh (cand_in · W_h[q] + b_h[q])
    out[q]  = (1 - a * update) * cand + (a * update) * h[q]

  The literal 1 of the last line is kept as the f32 word both programs print; the logistic is the library's, whose
  own 1 is the number one.

  Also here: a two-piece concatenation along the columns of a matrix, read at a row and a column, is the joined row.
-/
import Idealize.ShloMosaic.Lib.ValueIdx
import Idealize.ShloMosaic.Lib.Pipeline.Value
import Idealize.ShloMosaic.PureOps.Ideal.Laws
import Idealize.ShloMosaic.Lib.IdealHost

noncomputable section

open scoped BigOperators

namespace Cert.Cell

open Idealize.ShloMosaic Idealize.ShloMosaic.ValueIdx

/-- Two rows laid side by side: entry k is the first row's while k is below its length, else the second row's. -/
def joinRow {α : Type} {A B C : Nat} (hC : C = A + B) (xr : Fin A → α) (yr : Fin B → α) (k : Fin C) : α :=
  if hk : k.val < A then xr ⟨k.val, hk⟩ else yr ⟨k.val - A, by have := k.isLt; omega⟩

/-- A concatenation of an M × A and an M × B matrix along the columns, read at row r and column k, is the joined
    row r of the two at k. -/
theorem concat_cols_apply {α : Type} {M A B C : Nat} (hC : C = A + B)
    (x : (⟨2, ![M, A]⟩ : Shape).Idx → α) (y : (⟨2, ![M, B]⟩ : Shape).Idx → α)
    (h : Shape.Concatenates [(⟨2, ![M, A]⟩ : Shape), (⟨2, ![M, B]⟩ : Shape)] (⟨2, ![M, C]⟩ : Shape) 1)
    (r : Fin M) (k : Fin C) :
    concatenate (⟨2, ![M, C]⟩ : Shape) 1 [⟨(⟨2, ![M, A]⟩ : Shape), x⟩, ⟨(⟨2, ![M, B]⟩ : Shape), y⟩] h (ix2 r k)
      = joinRow hC (fun k' => x (ix2 r k')) (fun k' => y (ix2 r k')) k := by
  unfold joinRow
  by_cases hk : k.val < A
  · rw [dif_pos hk]
    exact concatenate_pair_apply_left (1 : Fin 2) x y h (ix2 r k) rfl (ix2 r ⟨k.val, hk⟩)
      (fun b => match b with
        | ⟨0, _⟩ => rfl
        | ⟨1, _⟩ => rfl)
  · rw [dif_neg hk]
    have hk' : k.val - A < B := by have := k.isLt; omega
    exact concatenate_pair_apply_right (1 : Fin 2) x y h (ix2 r k) rfl rfl (ix2 r ⟨k.val - A, hk'⟩)
      (fun b hb => match b, hb with
        | ⟨0, _⟩, _ => rfl
        | ⟨1, _⟩, hb => absurd rfl hb)
      (by show k.val - A + A = k.val; omega)

/-- The logistic spelt out as a quotient, 1 / (1 + e^(-x)), with the literal 1 any word that denotes the number one,
    is the logistic: the library's logistic is that very expression over the number one. -/
theorem logistic_expanded (one x : EReal) (h : one = 1) : Ideal.div one (one + Ideal.exp (-x)) = Ideal.logistic x := by
  subst h; rfl

/-- A row against one output column of a weight matrix, plus that column's bias. -/
def affine {K : Nat} (row : Fin K → EReal) (w : Fin 256 → Fin K → EReal) (b : Fin 256 → EReal) (q : Fin 256) : EReal :=
  (∑ k : Fin K, row k * w q k) + b q

/-- A gate: the logistic of the affine map of the joined row. -/
def gate (xr : Fin 512 → EReal) (hr : Fin 256 → EReal) (w : Fin 256 → Fin 768 → EReal) (b : Fin 256 → EReal)
    (q : Fin 256) : EReal :=
  Ideal.logistic (affine (joinRow (A := 512) (B := 256) rfl xr hr) w b q)

/-- The candidate state's input row: the first 256 input features, then the reset gate times the previous state. -/
def candIn (xr : Fin 512 → EReal) (hr : Fin 256 → EReal) (wr : Fin 256 → Fin 768 → EReal) (br : Fin 256 → EReal) :
    Fin 512 → EReal :=
  joinRow (A := 256) (B := 256) rfl (fun k => xr ⟨k.val, by have := k.isLt; omega⟩) (fun k => gate xr hr wr br k * hr k)

/-- One entry of the new state of one row. -/
def cellRow (xr : Fin 512 → EReal) (hr : Fin 256 → EReal) (a : EReal)
    (wr : Fin 256 → Fin 768 → EReal) (br : Fin 256 → EReal)
    (wu : Fin 256 → Fin 768 → EReal) (bu : Fin 256 → EReal)
    (wh : Fin 256 → Fin 512 → EReal) (bh : Fin 256 → EReal) (q : Fin 256) : EReal :=
  (Ideal.ofBits .f32 0x3F800000#32 - a * gate xr hr wu bu q) * Ideal.tanh (affine (candIn xr hr wr br) wh bh q)
    + a * gate xr hr wu bu q * hr q

/-- The cell depends on its arguments only through their values. -/
theorem cellRow_congr {xr xr' : Fin 512 → EReal} {hr hr' : Fin 256 → EReal} {a a' : EReal}
    {wr wr' : Fin 256 → Fin 768 → EReal} {br br' : Fin 256 → EReal} {wu wu' : Fin 256 → Fin 768 → EReal}
    {bu bu' : Fin 256 → EReal} {wh wh' : Fin 256 → Fin 512 → EReal} {bh bh' : Fin 256 → EReal} {q q' : Fin 256}
    (h0 : xr = xr') (h1 : hr = hr') (h2 : a = a') (h3 : wr = wr') (h4 : br = br') (h5 : wu = wu') (h6 : bu = bu')
    (h7 : wh = wh') (h8 : bh = bh') (h9 : q = q') :
    cellRow xr hr a wr br wu bu wh bh q = cellRow xr' hr' a' wr' br' wu' bu' wh' bh' q' := by
  rw [h0, h1, h2, h3, h4, h5, h6, h7, h8, h9]

/-- A vector of length a cast to an a × 1 column reads, at (i, u), the vector's entry i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The new state as a function of the nine argument arrays, index by index. -/
def cellArr {M : Nat}
    (x : (⟨2, ![M, 512]⟩ : Shape).Idx → EReal) (h : (⟨2, ![M, 256]⟩ : Shape).Idx → EReal)
    (a : (⟨1, ![M]⟩ : Shape).Idx → EReal)
    (wr : (⟨2, ![256, 768]⟩ : Shape).Idx → EReal) (br : (⟨1, ![256]⟩ : Shape).Idx → EReal)
    (wu : (⟨2, ![256, 768]⟩ : Shape).Idx → EReal) (bu : (⟨1, ![256]⟩ : Shape).Idx → EReal)
    (wh : (⟨2, ![256, 512]⟩ : Shape).Idx → EReal) (bh : (⟨1, ![256]⟩ : Shape).Idx → EReal) :
    (⟨2, ![M, 256]⟩ : Shape).Idx → EReal := fun i =>
  cellRow (fun k => x (ix2 (i 0) k)) (fun k => h (ix2 (i 0) k)) (a (ix1 (i 0)))
    (fun q k => wr (ix2 q k)) (fun q => br (ix1 q)) (fun q k => wu (ix2 q k)) (fun q => bu (ix1 q))
    (fun q k => wh (ix2 q k)) (fun q => bh (ix1 q)) (i 1)

end Cert.Cell

end
-- ==== Proof.RefCell.lean ====
/-
  The reference, entry by entry, is the cell of the arrays' rows.

  Entry (r, q) of each stage of the reference is read from the stage's operands: the joined rows; each product with a
  transposed weight matrix plus the broadcast bias as the affine map of joined row r (the transposed matrix at (k, q)
  is the matrix at (q, k)); the logistic, which the reference spells as the quotient 1 / (1 + e^(-x)); the candidate's
  input row; the hyperbolic tangent; and the blend with the attention score of row r.
-/
import proofs.«167529_j84052509982761_1_alg».proof.Proof.RefRead
import proofs.«167529_j84052509982761_1_alg».proof.Proof.Cell
import Idealize.ShloMosaic.Lib.ValueLayout
import Idealize.ShloMosaic.Lib.IdealHost

noncomputable section

open scoped BigOperators

namespace Cert.ReferenceIdeal.RefCell

open Cert.ReferenceIdeal Cert.ReferenceIdeal.Gen Cert.ReferenceIdeal.ReadP Idealize.ShloMosaic Idealize.ShloMosaic.ValueIdx Cert.Cell

variable (x0 : (⟨S65536x512, .f32⟩ : BufTy).Contents (Elt Ideal)) (x1 : (⟨S65536x256, .f32⟩ : BufTy).Contents (Elt Ideal)) (x2 : (⟨S65536, .f32⟩ : BufTy).Contents (Elt Ideal))
  (x3 : (⟨S256x768, .f32⟩ : BufTy).Contents (Elt Ideal)) (x4 : (⟨S256, .f32⟩ : BufTy).Contents (Elt Ideal)) (x5 : (⟨S256x768, .f32⟩ : BufTy).Contents (Elt Ideal)) (x6 : (⟨S256, .f32⟩ : BufTy).Contents (Elt Ideal))
  (x7 : (⟨S256x512, .f32⟩ : BufTy).Contents (Elt Ideal)) (x8 : (⟨S256, .f32⟩ : BufTy).Contents (Elt Ideal))

/-- The joined rows: the concatenation of the input features and the previous state along the columns. -/
theorem joined_apply (r : Fin 65536) (k : Fin 768) :
    val_main_v1 (F := Ideal) x0 x1 (ix2 r k)
      = joinRow (A := 512) (B := 256) rfl (fun k' => x0 (ix2 r k')) (fun k' => x1 (ix2 r k')) k :=
  concat_cols_apply rfl x0 x1 concatenates_S65536x512_S65536x256_S65536x768_d1 r k

/-- The reset gate: the product of the joined rows with the transposed weight matrix plus the bias, at (r, q), is the affine
    map of joined row r. -/
theorem affineR_apply (r : Fin 65536) (q : Fin 256) :
    val_main_v6 (F := Ideal) x0 x1 x3 x4 (ix2 r q)
      = affine (joinRow (A := 512) (B := 256) rfl (fun k' => x0 (ix2 r k')) (fun k' => x1 (ix2 r k')))
          (fun q' k => x3 (ix2 q' k)) (fun q' => x4 (ix1 q')) q := by
  unfold affine
  rw [val_main_v6_apply, val_main_v3_apply, val_main_v5_apply, val_main_v4_apply]
  simp only [Ideal.addf_def]
  refine congrArg₂ (· + ·) (Finset.sum_congr rfl fun k _ => ?_) (congrArg x4 ?_)
  · rw [val_main_v2_apply]
    refine congrArg₂ (· * ·) ?_ (congrArg x3 ?_)
    · refine (congrArg (val_main_v1 (F := Ideal) x0 x1) ?_).trans (joined_apply x0 x1 r k)
      funext a; match a with | ⟨0, _⟩ => rfl | ⟨1, _⟩ => rfl
    · funext a; match a with | ⟨0, _⟩ => rfl | ⟨1, _⟩ => rfl
  · funext a; match a with | ⟨0, _⟩ => rfl

/-- The reset gate: the host's expanded logistic of that affine map is the gate. -/
theorem gateR_apply (r : Fin 65536) (q : Fin 256) :
    val_main_v12 (F := Ideal) x0 x1 x3 x4 (ix2 r q)
      = gate (fun k' => x0 (ix2 r k')) (fun k' => x1 (ix2 r k')) (fun q' k => x3 (ix2 q' k)) (fun q' => x4 (ix1 q')) q := by
  rw [val_main_v12_apply, val_main_v11_apply, val_main_cst_0_apply, val_main_v10_apply, val_main_v9_apply,
    val_main_cst_apply, val_main_v8_apply, val_main_v7_apply, affineR_apply]
  exact logistic_expanded _ _ Ideal.ofBits_one_f32

/-- The update gate: the product of the joined rows with the transposed weight matrix plus the bias, at (r, q), is the affine
    map of joined row r. -/
theorem affineU_apply (r : Fin 65536) (q : Fin 256) :
    val_main_v17 (F := Ideal) x0 x1 x5 x6 (ix2 r q)
      = affine (joinRow (A := 512) (B := 256) rfl (fun k' => x0 (ix2 r k')) (fun k' => x1 (ix2 r k')))
          (fun q' k => x5 (ix2 q' k)) (fun q' => x6 (ix1 q')) q := by
  unfold affine
  rw [val_main_v17_apply, val_main_v14_apply, val_main_v16_apply, val_main_v15_apply]
  simp only [Ideal.addf_def]
  refine congrArg₂ (· + ·) (Finset.sum_congr rfl fun k _ => ?_) (congrArg x6 ?_)
  · rw [val_main_v13_apply]
    refine congrArg₂ (· * ·) ?_ (congrArg x5 ?_)
    · refine (congrArg (val_main_v1 (F := Ideal) x0 x1) ?_).trans (joined_apply x0 x1 r k)
      funext a; match a with | ⟨0, _⟩ => rfl | ⟨1, _⟩ => rfl
    · funext a; match a with | ⟨0, _⟩ => rfl | ⟨1, _⟩ => rfl
  · funext a; match a with | ⟨0, _⟩ => rfl

/-- The update gate: the host's expanded logistic of that affine map is the gate. -/
theorem gateU_apply (r : Fin 65536) (q : Fin 256) :
    val_main_v23 (F := Ideal) x0 x1 x5 x6 (ix2 r q)
      = gate (fun k' => x0 (ix2 r k')) (fun k' => x1 (ix2 r k')) (fun q' k => x5 (ix2 q' k)) (fun q' => x6 (ix1 q')) q := by
  rw [val_main_v23_apply, val_main_v22_apply, val_main_cst_2_apply, val_main_v21_apply, val_main_v20_apply,
    val_main_cst_1_apply, val_main_v19_apply, val_main_v18_apply, affineU_apply]
  exact logistic_expanded _ _ Ideal.ofBits_one_f32

/-- The candidate's input rows: the first 256 input features beside the reset gate times the previous state. -/
theorem candIn_apply (r : Fin 65536) (k : Fin 512) :
    val_main_v25 (F := Ideal) x0 x1 x3 x4 (ix2 r k)
      = candIn (fun k' => x0 (ix2 r k')) (fun k' => x1 (ix2 r k')) (fun q' k' => x3 (ix2 q' k')) (fun q' => x4 (ix1 q')) k := by
  unfold candIn
  refine (concat_cols_apply (A := 256) (B := 256) rfl (val_main_v0 (F := Ideal) x0) (val_main_v24 (F := Ideal) x0 x1 x3 x4)
    concatenates_S65536x256_S65536x256_S65536x512_d1 r k).trans ?_
  congr 1
  · funext k'
    rw [val_main_v0_apply]
    refine congrArg x0 ?_
    funext a; match a with | ⟨0, _⟩ => rfl | ⟨1, _⟩ => rfl
  · funext k'
    rw [val_main_v24_apply, gateR_apply]
    rfl

/-- The candidate state: the hyperbolic tangent of the affine map of the candidate's input row. -/
theorem cand_apply (r : Fin 65536) (q : Fin 256) :
    val_main_v31 (F := Ideal) x0 x1 x3 x4 x7 x8 (ix2 r q)
      = Ideal.tanh (affine (candIn (fun k' => x0 (ix2 r k')) (fun k' => x1 (ix2 r k')) (fun q' k' => x3 (ix2 q' k'))
          (fun q' => x4 (ix1 q'))) (fun q' k => x7 (ix2 q' k)) (fun q' => x8 (ix1 q')) q) := by
  rw [val_main_v31_apply, val_main_v30_apply, val_main_v27_apply, val_main_v29_apply, val_main_v28_apply]
  simp only [Ideal.hostUnary_tanh_def, Ideal.addf_def]
  refine congrArg Ideal.tanh ?_
  unfold affine
  refine congrArg₂ (· + ·) (Finset.sum_congr rfl fun k _ => ?_) (congrArg x8 ?_)
  · rw [val_main_v26_apply]
    refine congrArg₂ (· * ·) ?_ (congrArg x7 ?_)
    · refine (congrArg (val_main_v25 (F := Ideal) x0 x1 x3 x4) ?_).trans (candIn_apply x0 x1 x3 x4 r k)
      funext a; match a with | ⟨0, _⟩ => rfl | ⟨1, _⟩ => rfl
    · funext a; match a with | ⟨0, _⟩ => rfl | ⟨1, _⟩ => rfl
  · funext a; match a with | ⟨0, _⟩ => rfl

/-- The attention score of row r, laid over the 256 columns. -/
theorem score_apply (r : Fin 65536) (q : Fin 256) : val_main_v33 (F := Ideal) x2 (ix2 r q) = x2 (ix1 r) := by
  rw [val_main_v33_apply, val_main_v32_apply]
  refine congrArg x2 ?_
  funext a; match a with | ⟨0, _⟩ => rfl

/-- THE REFERENCE: its result at (r, q) is the cell of row r of the argument arrays. -/
theorem ref_apply (i : S65536x256.Idx) :
    val_main_v39 (F := Ideal) x0 x1 x2 x3 x4 x5 x6 x7 x8 i = cellArr (M := 65536) x0 x1 x2 x3 x4 x5 x6 x7 x8 i := by
  obtain ⟨r, q, rfl⟩ : ∃ (r : Fin 65536) (q : Fin 256), i = ix2 r q := ⟨i 0, i 1, eq_ix2 i⟩
  unfold cellArr cellRow
  rw [val_main_v39_apply, val_main_v37_apply, val_main_v38_apply, val_main_v36_apply, val_main_v35_apply, val_main_cst_3_apply,
    val_main_v34_apply, score_apply, gateU_apply, cand_apply]
  rfl

/-- The same as an equation of arrays. -/
theorem ref_eq : val_main_v39 (F := Ideal) x0 x1 x2 x3 x4 x5 x6 x7 x8 = cellArr (M := 65536) x0 x1 x2 x3 x4 x5 x6 x7 x8 :=
  funext (ref_apply x0 x1 x2 x3 x4 x5 x6 x7 x8)

end Cert.ReferenceIdeal.RefCell

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.KernelCell.lean ====
/-
  The kernel's block, entry by entry, is the cell of the block's rows.

  At a grid point the body holds a 2048-row block of the input features, of the previous state and of the attention
  score, and the three transposed weight matrices and bias rows whole. Entry (p, q) of what it stores is read here:
  the joined row p of the two blocks; a product with a transposed weight block into the zero accumulator plus the
  bias row, as the affine map of that row (the contracted coordinate runs over the joined row's entries and over the
  weight block's rows, so the weight entry at (k, q) plays the part of column k of output q); the two logistic gates;
  the candidate's input row; and the final blend. A change of float format is the identity on the extended reals,
  so the casts to the narrow format drop out.
-/
import proofs.«167529_j84052509982761_1_alg».proof.Proof.Gen.KernelIdeal.Value
import proofs.«167529_j84052509982761_1_alg».proof.Proof.Cell
import proofs.«167529_j84052509982761_1_alg».proof.Proof.LibDot
import Idealize.ShloMosaic.Lib.ValueLayout

noncomputable section

open scoped BigOperators

namespace Cert.KernelIdeal.Block

open Cert.KernelIdeal Cert.KernelIdeal.Gen Idealize.ShloMosaic Idealize.ShloMosaic.ValueIdx Cert.Cell

variable (v0 : Vec Ideal S2048x512 .f32) (v1 : Vec Ideal S2048x256 .f32)

/-- The block's joined row: the concatenation of the two blocks along the columns, at row p and column k. -/
theorem joined_apply (p : Fin 2048) (k : Fin 768) :
    k0_pay2 (F := Ideal) v0 v1 (ix2 p k)
      = joinRow (A := 512) (B := 256) rfl (fun k' => v0 (ix2 p k')) (fun k' => v1 (ix2 p k')) k :=
  concat_cols_apply rfl v0 v1 concatenates_S2048x512_S2048x256_S2048x768_d1 p k

/-- A bias row laid over the 2048 rows reads, at (p, q), the row's entry q. -/
theorem bias_apply (b : Vec Ideal S1x256 .f32) (p : Fin 2048) (q : Fin 256) :
    broadcastTo S2048x256 (shapeCast S1x256 b shapeCasts_S1x256_S1x256) broadcasts_S1x256_S2048x256 (ix2 p q)
      = b (ix2 (0 : Fin 1) q) :=
  (broadcastTo_1b_ab_apply _ broadcasts_S1x256_S2048x256 p q).trans
    (congrFun (shapeCast_self b shapeCasts_S1x256_S1x256) _)

/-- The joined block against a transposed 768-row weight block, plus the bias row: the affine map of joined row p. -/
theorem affine768_apply (w : Vec Ideal S768x256 .f32) (b : Vec Ideal S1x256 .f32) (p : Fin 2048) (q : Fin 256) :
    addf (matmul dot_S2048x768_S768x256_S2048x256_1_0_0_1_n_n none (k0_pay2 (F := Ideal) v0 v1)
          (truncf .bf16 (shapeCast S768x256 w shapeCasts_S768x256_S768x256) bitsLt_bf16_f32)
          (constant S2048x256 .f32 0x00000000#32))
        (broadcastTo S2048x256 (shapeCast S1x256 b shapeCasts_S1x256_S1x256) broadcasts_S1x256_S2048x256) (ix2 p q)
      = affine (joinRow (A := 512) (B := 256) rfl (fun k' => v0 (ix2 p k')) (fun k' => v1 (ix2 p k')))
          (fun q' k => w (ix2 k q')) (fun q' => b (ix2 (0 : Fin 1) q')) q := by
  unfold affine
  rw [addf_apply, bias_apply]
  refine congrArg (· + b (ix2 (0 : Fin 1) q)) ?_
  refine (LibDot.matmul_10_zero_apply dot_S2048x768_S768x256_S2048x256_1_0_0_1_n_n rfl rfl rfl rfl rfl rfl none
    (k0_pay2 (F := Ideal) v0 v1) (truncf .bf16 (shapeCast S768x256 w shapeCasts_S768x256_S768x256) bitsLt_bf16_f32) p q).trans ?_
  refine Finset.sum_congr rfl fun c _ => ?_
  rw [joined_apply]
  exact congrArg (_ * ·) (congrFun (shapeCast_self w shapeCasts_S768x256_S768x256) (ix2 c q))

/-- The update gate's payload at (p, q). -/
theorem update_apply (w : Vec Ideal S768x256 .f32) (b : Vec Ideal S1x256 .f32) (p : Fin 2048) (q : Fin 256) :
    k0_pay3 (F := Ideal) v0 v1 w b (ix2 p q)
      = gate (fun k' => v0 (ix2 p k')) (fun k' => v1 (ix2 p k')) (fun q' k => w (ix2 k q')) (fun q' => b (ix2 (0 : Fin 1) q')) q :=
  congrArg Ideal.logistic (affine768_apply v0 v1 w b p q)

/-- The reset gate inside the candidate's payload, as a whole block. -/
def resetBlk (w : Vec Ideal S768x256 .f32) (b : Vec Ideal S1x256 .f32) : FVec Ideal S2048x256 .f32 :=
  logistic (addf (matmul dot_S2048x768_S768x256_S2048x256_1_0_0_1_n_n none (k0_pay2 (F := Ideal) v0 v1)
      (truncf .bf16 (shapeCast S768x256 w shapeCasts_S768x256_S768x256) bitsLt_bf16_f32)
      (constant S2048x256 .f32 0x00000000#32))
    (broadcastTo S2048x256 (shapeCast S1x256 b shapeCasts_S1x256_S1x256) broadcasts_S1x256_S2048x256))

theorem resetBlk_apply (w : Vec Ideal S768x256 .f32) (b : Vec Ideal S1x256 .f32) (p : Fin 2048) (q : Fin 256) :
    resetBlk v0 v1 w b (ix2 p q)
      = gate (fun k' => v0 (ix2 p k')) (fun k' => v1 (ix2 p k')) (fun q' k => w (ix2 k q')) (fun q' => b (ix2 (0 : Fin 1) q')) q :=
  congrArg Ideal.logistic (affine768_apply v0 v1 w b p q)

/-- The candidate's input block — the first 256 columns of the input block beside the reset gate times the state
    block — at row p and column k, is the candidate's input row. -/
theorem candIn_apply (w : Vec Ideal S768x256 .f32) (b : Vec Ideal S1x256 .f32) (p : Fin 2048) (k : Fin 512) :
    concatenate S2048x512 1 [⟨S2048x256, extractStridedSlice S2048x256 ![0, 0] v0 slices_S2048x512_o0_0_S2048x256⟩,
        ⟨S2048x256, mulf (resetBlk v0 v1 w b) v1⟩] concatenates_S2048x256_S2048x256_S2048x512_d1 (ix2 p k)
      = candIn (fun k' => v0 (ix2 p k')) (fun k' => v1 (ix2 p k')) (fun q' k' => w (ix2 k' q')) (fun q' => b (ix2 (0 : Fin 1) q')) k := by
  unfold candIn
  rw [concat_cols_apply (A := 256) (B := 256) rfl]
  congr 1
  · funext k'
    exact slice2_axis1_apply 0 v0 slices_S2048x512_o0_0_S2048x256 p k' ⟨k'.val, by have := k'.isLt; omega⟩ (Nat.zero_add _).symm
  · funext k'
    rw [mulf_apply, resetBlk_apply]

/-- The candidate state's payload at (p, q). -/
theorem cand_apply (wr : Vec Ideal S768x256 .f32) (br : Vec Ideal S1x256 .f32) (wh : Vec Ideal S512x256 .f32)
    (bh : Vec Ideal S1x256 .f32) (p : Fin 2048) (q : Fin 256) :
    k0_pay4 (F := Ideal) v0 v1 wr br wh bh (ix2 p q)
      = Ideal.tanh (affine (candIn (fun k' => v0 (ix2 p k')) (fun k' => v1 (ix2 p k')) (fun q' k' => wr (ix2 k' q'))
          (fun q' => br (ix2 (0 : Fin 1) q'))) (fun q' k => wh (ix2 k q')) (fun q' => bh (ix2 (0 : Fin 1) q')) q) := by
  refine congrArg Ideal.tanh ?_
  unfold affine
  show (addf _ _) (ix2 p q) = _
  rw [addf_apply, bias_apply]
  refine congrArg (· + bh (ix2 (0 : Fin 1) q)) ?_
  refine (LibDot.matmul_10_zero_apply dot_S2048x512_S512x256_S2048x256_1_0_0_1_n_n rfl rfl rfl rfl rfl rfl none _ _ p q).trans ?_
  refine Finset.sum_congr rfl fun c _ => ?_
  refine congrArg₂ (· * ·) ?_ (congrFun (shapeCast_self wh shapeCasts_S512x256_S512x256) (ix2 c q))
  exact candIn_apply v0 v1 wr br p c

/-- The attention block's column laid over the 256 columns reads, at (p, q), the score of row p. -/
theorem score_index (y : S2048x256.Idx) (p : Fin 2048) (q : Fin 256) (hy : y = ix2 p q) :
    Cert.KernelIdeal.Value.ix9_0 y = ix2 p (0 : Fin 1) := by
  subst hy
  funext a
  match a with
  | ⟨0, _⟩ => rfl
  | ⟨1, _⟩ => rfl

/-- THE BLOCK: entry (p, q) of what a grid point leaves in the output's buffer is the cell of row p of the blocks. -/
theorem block_apply (a : Vec Ideal S2048x1 .f32) (wu : Vec Ideal S768x256 .f32) (bu : Vec Ideal S1x256 .f32)
    (wr : Vec Ideal S768x256 .f32) (br : Vec Ideal S1x256 .f32) (wh : Vec Ideal S512x256 .f32) (bh : Vec Ideal S1x256 .f32)
    (p : Fin 2048) (q : Fin 256) :
    Cert.KernelIdeal.Value.E9 (F := Ideal) a v0 v1 wu bu wr br wh bh (ix2 p q)
      = cellRow (fun k' => v0 (ix2 p k')) (fun k' => v1 (ix2 p k')) (a (ix2 p (0 : Fin 1)))
          (fun q' k => wr (ix2 k q')) (fun q' => br (ix2 (0 : Fin 1) q'))
          (fun q' k => wu (ix2 k q')) (fun q' => bu (ix2 (0 : Fin 1) q'))
          (fun q' k => wh (ix2 k q')) (fun q' => bh (ix2 (0 : Fin 1) q')) q := by
  have e0 : Cert.KernelIdeal.Value.ix9_0 (ix2 p q) = ix2 p (0 : Fin 1) := score_index _ p q rfl
  have e1 : Cert.KernelIdeal.Value.ix9_1 (ix2 p q) = ix2 p q := by
    funext a'; match a' with | ⟨0, _⟩ => rfl | ⟨1, _⟩ => rfl
  unfold cellRow
  show (Ideal.ofBits .f32 0x3F800000#32 - a (Cert.KernelIdeal.Value.ix9_0 (ix2 p q)) * k0_pay3 (F := Ideal) v0 v1 wu bu (Cert.KernelIdeal.Value.ix9_1 (ix2 p q)))
        * k0_pay4 (F := Ideal) v0 v1 wr br wh bh (Cert.KernelIdeal.Value.ix9_1 (ix2 p q))
      + a (Cert.KernelIdeal.Value.ix9_0 (ix2 p q)) * k0_pay3 (F := Ideal) v0 v1 wu bu (Cert.KernelIdeal.Value.ix9_1 (ix2 p q)) * v1 (Cert.KernelIdeal.Value.ix9_1 (ix2 p q)) = _
  rw [e0, e1, update_apply, cand_apply]

theorem hz : (![0, 0] : Fin 2 → Nat) = fun _ => 0 := funext fun a => by fin_cases a <;> rfl

/-- What a grid point leaves in the output's buffer, from the ten windows' blocks: entry y is the cell of row y 0 of
    the blocks (the body stores one value over the whole buffer, and loads each block whole). -/
theorem out_apply (x0 : Vec Ideal S2048x512 .f32) (x1 : Vec Ideal S2048x256 .f32) (x2 : Vec Ideal S2048x1 .f32)
    (x3 : Vec Ideal S768x256 .f32) (x4 : Vec Ideal S1x256 .f32) (x5 : Vec Ideal S768x256 .f32) (x6 : Vec Ideal S1x256 .f32)
    (x7 : Vec Ideal S512x256 .f32) (x8 : Vec Ideal S1x256 .f32) (y : S2048x256.Idx) :
    out0_9 (F := Ideal) x0 x1 x2 x3 x4 x5 x6 x7 x8 y
      = cellRow (fun k' => x0 (ix2 (y 0) k')) (fun k' => x1 (ix2 (y 0) k')) (x2 (ix2 (y 0) (0 : Fin 1)))
          (fun q' k => x3 (ix2 k q')) (fun q' => x4 (ix2 (0 : Fin 1) q'))
          (fun q' k => x5 (ix2 k q')) (fun q' => x6 (ix2 (0 : Fin 1) q'))
          (fun q' k => x7 (ix2 k q')) (fun q' => x8 (ix2 (0 : Fin 1) q')) (y 1) := by
  unfold out0_9
  simp only [View.ld_unit_zero (S := S2048x512) hz, View.ld_unit_zero (S := S2048x256) hz, View.ld_unit_zero (S := S2048x1) hz,
    View.ld_unit_zero (S := S768x256) hz, View.ld_unit_zero (S := S1x256) hz, View.ld_unit_zero (S := S512x256) hz]
  rw [Cert.KernelIdeal.Value.canon9_eq]
  obtain ⟨p, q, rfl⟩ : ∃ (p : Fin 2048) (q : Fin 256), y = ix2 p q := ⟨y 0, y 1, eq_ix2 y⟩
  exact block_apply x0 x1 x2 x5 x6 x3 x4 x7 x8 p q

end Cert.KernelIdeal.Block

end
-- ==== Proof.Blocks.lean ====
/-
  From the blocks to the whole array.

  The grid has 32 points; point t stages rows [2048 t, 2048 t + 2048) of the input features, of the previous state and
  of the attention score (held as a 65536 × 1 column), the three transposed weight matrices and the three bias rows
  whole, and writes back rows [2048 t, 2048 t + 2048) of the output. Since the cell of a row reads only that row of
  the row-blocked arrays, what point t writes back is block t of the cell of the whole arrays; the 32 blocks cover the
  output, so the output array ends as that function of the nine arguments. The transposed matrices and the reshaped
  vectors are what the host operations before the kernel make of the arguments.
-/
import proofs.«167529_j84052509982761_1_alg».proof.Proof.KernelCell
import Idealize.ShloMosaic.Lib.StableHlo.Run

set_option maxRecDepth 16384

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.ValueIdx Cert.Cell Idealize.ShloMosaic.StableHlo
open Idealize.ShloMosaic.Pipeline (Dat)

variable (m : (ℓ : Loc nD τ sig) → Buf (Elt Ideal) ℓ) (ρ : Dev nD → PrngReg)

/-! ## What the host operations before the kernel leave in the staged arrays -/

theorem V_wr (c : Dev nD) : (V m c main_v0 : S768x256.Idx → EReal)
    = transpose S768x256 [1, 0] (m ((c : Thread nD τ).loc main_arg3)) transposes_S256x768_S768x256_1_0 := by
  dsimp only [V, hostOps0]; after_results

theorem V_wu (c : Dev nD) : (V m c main_v1 : S768x256.Idx → EReal)
    = transpose S768x256 [1, 0] (m ((c : Thread nD τ).loc main_arg5)) transposes_S256x768_S768x256_1_0 := by
  dsimp only [V, hostOps0]; after_results

theorem V_wh (c : Dev nD) : (V m c main_v2 : S512x256.Idx → EReal)
    = transpose S512x256 [1, 0] (m ((c : Thread nD τ).loc main_arg7)) transposes_S256x512_S512x256_1_0 := by
  dsimp only [V, hostOps0]; after_results

theorem V_br (c : Dev nD) : (V m c main_v3 : S1x256.Idx → EReal)
    = shapeCast S1x256 (m ((c : Thread nD τ).loc main_arg4)) shapeCasts_S256_S1x256 := by
  dsimp only [V, hostOps0]; after_results; rfl

theorem V_bu (c : Dev nD) : (V m c main_v4 : S1x256.Idx → EReal)
    = shapeCast S1x256 (m ((c : Thread nD τ).loc main_arg6)) shapeCasts_S256_S1x256 := by
  dsimp only [V, hostOps0]; after_results; rfl

theorem V_bh (c : Dev nD) : (V m c main_v5 : S1x256.Idx → EReal)
    = shapeCast S1x256 (m ((c : Thread nD τ).loc main_arg8)) shapeCasts_S256_S1x256 := by
  dsimp only [V, hostOps0]; after_results; rfl

theorem V_score (c : Dev nD) : (V m c main_v6 : S65536x1.Idx → EReal)
    = shapeCast S65536x1 (m ((c : Thread nD τ).loc main_arg2)) shapeCasts_S65536_S65536x1 := by
  dsimp only [V, hostOps0]; after_results; rfl

/-! ## The output array as one function of the arguments -/

/-- The new state of every row, from the nine argument arrays as launched. -/
abbrev G (c : Dev nD) : S65536x256.Idx → EReal :=
  cellArr (M := 65536) (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))

/-- The index maps over the 32 grid points: the three row-blocked inputs move with the output, block t at point t;
    every other window stays at its one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- WHAT POINT t WRITES BACK is block t of the cell of the whole arrays. -/
theorem flushed_eq (c : Dev nD) (t : Fin cfg0.N) :
    (dats m 0 c).flushed 9 t = ((cfg0.win 9).blk t).view.read (Elt Ideal) (G m c) := by
  rw [flushed9]
  obtain ⟨a0, a1, b0, b1, s0, s1, r0, r1, br0, br1, u0, u1, bu0, bu1, h0, h1, bh0, bh1, o0, o1⟩ := idx_facts t
  funext y
  show out0_9 (iblk m c 0 t) (iblk m c 1 t) (iblk m c 2 t) (iblk m c 3 t) (iblk m c 4 t) (iblk m c 5 t) (iblk m c 6 t)
      (iblk m c 7 t) (iblk m c 8 t) y = G m c (((cfg0.win 9).blk t).view.emb y)
  refine (Block.out_apply (iblk m c 0 t) (iblk m c 1 t) (iblk m c 2 t) (iblk m c 3 t) (iblk m c 4 t) (iblk m c 5 t)
    (iblk m c 6 t) (iblk m c 7 t) (iblk m c 8 t) y).trans ?_
  have hy0 : (y 0).val < 2048 := (y 0).isLt
  have hy1 : (y 1).val < 256 := (y 1).isLt
  have ht : t.val < 32 := t.isLt
  refine cellRow_congr ?_ ?_ ?_ ?_ ?_ ?_ ?_ ?_ ?_ ?_
  · -- the row of the input features
    funext k'
    show V m c main_arg0 (((cfg0.win 0).blk t).view.emb (ix2 (y 0) k')) = _
    rw [V_main_arg0]
    refine congrArg (m ((c : Thread nD τ).loc main_arg0)) ?_
    funext a; apply Fin.ext
    match a with
    | ⟨0, _⟩ => show win0_0.index t (0 : Fin 2) * 2048 + 1 * (y 0).val = win0_9.index t (0 : Fin 2) * 2048 + 1 * (y 0).val; omega
    | ⟨1, _⟩ => show win0_0.index t (1 : Fin 2) * 512 + 1 * k'.val = k'.val; omega
  · -- the row of the previous state
    funext k'
    show V m c main_arg1 (((cfg0.win 1).blk t).view.emb (ix2 (y 0) k')) = _
    rw [V_main_arg1]
    refine congrArg (m ((c : Thread nD τ).loc main_arg1)) ?_
    funext a; apply Fin.ext
    match a with
    | ⟨0, _⟩ => show win0_1.index t (0 : Fin 2) * 2048 + 1 * (y 0).val = win0_9.index t (0 : Fin 2) * 2048 + 1 * (y 0).val; omega
    | ⟨1, _⟩ => show win0_1.index t (1 : Fin 2) * 256 + 1 * k'.val = k'.val; omega
  · -- the row's attention score
    show V m c main_v6 (((cfg0.win 2).blk t).view.emb (ix2 (y 0) (0 : Fin 1))) = _
    rw [V_score]
    have he : ((cfg0.win 2).blk t).view.emb (ix2 (y 0) (0 : Fin 1))
        = ix2 (⟨win0_9.index t (0 : Fin 2) * 2048 + 1 * (y 0).val, by omega⟩ : Fin 65536) (0 : Fin 1) := by
      funext a; apply Fin.ext
      match a with
      | ⟨0, _⟩ => show win0_2.index t (0 : Fin 2) * 2048 + 1 * (y 0).val = win0_9.index t (0 : Fin 2) * 2048 + 1 * (y 0).val; omega
      | ⟨1, _⟩ => show win0_2.index t (1 : Fin 2) * 1 + 1 * 0 = 0; omega
    rw [he]
    refine (shapeCast_a_a1_apply _ shapeCasts_S65536_S65536x1 _ _).trans ?_
    refine congrArg (m ((c : Thread nD τ).loc main_arg2)) ?_
    funext a; match a with | ⟨0, _⟩ => rfl
  · -- the reset gate's weights
    funext q' k
    show V m c main_v0 (((cfg0.win 3).blk t).view.emb (ix2 k q')) = _
    rw [V_wr]
    have he : ((cfg0.win 3).blk t).view.emb (ix2 k q') = ix2 k q' := by
      funext a; apply Fin.ext
      match a with
      | ⟨0, _⟩ => show win0_3.index t (0 : Fin 2) * 768 + 1 * k.val = k.val; omega
      | ⟨1, _⟩ => show win0_3.index t (1 : Fin 2) * 256 + 1 * q'.val = q'.val; omega
    rw [he]
    exact transpose_ix2_apply _ transposes_S256x768_S768x256_1_0 k q'
  · -- the reset gate's bias
    funext q'
    show V m c main_v3 (((cfg0.win 4).blk t).view.emb (ix2 (0 : Fin 1) q')) = _
    rw [V_br]
    have he : ((cfg0.win 4).blk t).view.emb (ix2 (0 : Fin 1) q') = ix2 (0 : Fin 1) q' := by
      funext a; apply Fin.ext
      match a with
      | ⟨0, _⟩ => show win0_4.index t (0 : Fin 2) * 1 + 1 * 0 = 0; omega
      | ⟨1, _⟩ => show win0_4.index t (1 : Fin 2) * 256 + 1 * q'.val = q'.val; omega
    rw [he]
    exact shapeCast_a_1a_apply _ shapeCasts_S256_S1x256 0 q'
  · -- the update gate's weights
    funext q' k
    show V m c main_v1 (((cfg0.win 5).blk t).view.emb (ix2 k q')) = _
    rw [V_wu]
    have he : ((cfg0.win 5).blk t).view.emb (ix2 k q') = ix2 k q' := by
      funext a; apply Fin.ext
      match a with
      | ⟨0, _⟩ => show win0_5.index t (0 : Fin 2) * 768 + 1 * k.val = k.val; omega
      | ⟨1, _⟩ => show win0_5.index t (1 : Fin 2) * 256 + 1 * q'.val = q'.val; omega
    rw [he]
    exact transpose_ix2_apply _ transposes_S256x768_S768x256_1_0 k q'
  · -- the update gate's bias
    funext q'
    show V m c main_v4 (((cfg0.win 6).blk t).view.emb (ix2 (0 : Fin 1) q')) = _
    rw [V_bu]
    have he : ((cfg0.win 6).blk t).view.emb (ix2 (0 : Fin 1) q') = ix2 (0 : Fin 1) q' := by
      funext a; apply Fin.ext
      match a with
      | ⟨0, _⟩ => show win0_6.index t (0 : Fin 2) * 1 + 1 * 0 = 0; omega
      | ⟨1, _⟩ => show win0_6.index t (1 : Fin 2) * 256 + 1 * q'.val = q'.val; omega
    rw [he]
    exact shapeCast_a_1a_apply _ shapeCasts_S256_S1x256 0 q'
  · -- the candidate's weights
    funext q' k
    show V m c main_v2 (((cfg0.win 7).blk t).view.emb (ix2 k q')) = _
    rw [V_wh]
    have he : ((cfg0.win 7).blk t).view.emb (ix2 k q') = ix2 k q' := by
      funext a; apply Fin.ext
      match a with
      | ⟨0, _⟩ => show win0_7.index t (0 : Fin 2) * 512 + 1 * k.val = k.val; omega
      | ⟨1, _⟩ => show win0_7.index t (1 : Fin 2) * 256 + 1 * q'.val = q'.val; omega
    rw [he]
    exact transpose_ix2_apply _ transposes_S256x512_S512x256_1_0 k q'
  · -- the candidate's bias
    funext q'
    show V m c main_v5 (((cfg0.win 8).blk t).view.emb (ix2 (0 : Fin 1) q')) = _
    rw [V_bh]
    have he : ((cfg0.win 8).blk t).view.emb (ix2 (0 : Fin 1) q') = ix2 (0 : Fin 1) q' := by
      funext a; apply Fin.ext
      match a with
      | ⟨0, _⟩ => show win0_8.index t (0 : Fin 2) * 1 + 1 * 0 = 0; omega
      | ⟨1, _⟩ => show win0_8.index t (1 : Fin 2) * 256 + 1 * q'.val = q'.val; omega
    rw [he]
    exact shapeCast_a_1a_apply _ shapeCasts_S256_S1x256 0 q'
  · -- the column
    apply Fin.ext
    show (y 1).val = win0_9.index t (1 : Fin 2) * 256 + 1 * (y 1).val
    omega

/-- An index of the output array is in point t's block iff each coordinate is in the block's range on its axis. -/
theorem mem_blk (t : Fin cfg0.N) (i : S65536x256.Idx) :
    i ∈ ((cfg0.win 9).blk t).view.set ↔ ∀ a : Fin 2, win0_9.index t a * S2048x256.size a ≤ (i a).val
      ∧ (i a).val < win0_9.index t a * S2048x256.size a + S2048x256.size a := by
  show i ∈ ((View.whole main_v7).slice (win0_9.rect t)).set ↔ _
  rw [View.set_slice_whole, Rect.mem_set_unit]
  exact Iff.rfl

/-- Every index of the output array is in the block of the point its row falls in. -/
theorem cover (i : S65536x256.Idx) :
    ∃ t : Fin cfg0.N, (cfg0.win 9).flush t = true ∧ i ∈ ((cfg0.win 9).blk t).view.set := by
  have hi0 : (i 0).val < 65536 := (i 0).isLt
  have hi1 : (i 1).val < 256 := (i 1).isLt
  have ht : (i 0).val / 2048 < 32 := by omega
  refine ⟨⟨(i 0).val / 2048, ht⟩, flush0_9 _, ?_⟩
  rw [mem_blk]
  obtain ⟨-, -, -, -, -, -, -, -, -, -, -, -, -, -, -, -, -, -, o0, o1⟩ := idx_facts ⟨(i 0).val / 2048, ht⟩
  have o0' : win0_9.index ⟨(i 0).val / 2048, ht⟩ (0 : Fin 2) = (i 0).val / 2048 := o0
  intro a
  match a with
  | ⟨0, _⟩ =>
    show win0_9.index ⟨(i 0).val / 2048, ht⟩ (0 : Fin 2) * 2048 ≤ (i 0).val
      ∧ (i 0).val < win0_9.index ⟨(i 0).val / 2048, ht⟩ (0 : Fin 2) * 2048 + 2048
    omega
  | ⟨1, _⟩ =>
    show win0_9.index ⟨(i 0).val / 2048, ht⟩ (1 : Fin 2) * 256 ≤ (i 1).val
      ∧ (i 1).val < win0_9.index ⟨(i 0).val / 2048, ht⟩ (1 : Fin 2) * 256 + 256
    omega

/-- THE ARRAY after the run is the cell of the whole arrays. -/
theorem final (c : Dev nD) : (dats m 0 c).arrAt 9 cfg0.N = G m c :=
  (dats m 0 c).arrAt_eq_of_cover 9 (G m c) (fun t _ => flushed_eq m c t) cover

/-- The kernel's run: the output at the cell of the arguments, the arguments unchanged. -/
theorem run : θ_run defs (onTc (τ := τ) (main (F := Ideal))) ⟨m, fun _ => 0, ρ⟩ fun r => ∀ c : Dev nD,
      r.2.mem ((c : Thread nD τ).loc main_v7) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.KernelIdeal.Blocks

end
-- ==== Proof.lean ====
/-
  The gated recurrent cell with an attention-scaled update gate, as a Pallas kernel over 32 blocks of 2048 rows,
  against its plain reference: both compute, for every row r and output column q,

    out[r, q] = (1 - a[r] * u[r, q]) * tanh (cand_in[r] · W_h[q] + b_h[q]) + a[r] * u[r, q] * h[r, q]

  with u = logistic ([x | h] · W_u + b_u), cand_in = [x[:, 0..256) | logistic ([x | h] · W_r + b_r) * h] — the function
  Proof/Cell.lean states row by row over the extended reals.

  The kernel side: each grid point leaves in its output block the cell of its blocks' rows (Proof/KernelCell.lean: the
  three products into a zero accumulator as sums over the contracted coordinate, the casts to the narrow float format
  the identity), and the 32 blocks cover the output (Proof/Blocks.lean, where the transposed weights and the reshaped
  biases and score are read back to the arguments). The reference side: its result is the same cell of the arguments
  (Proof/RefCell.lean), its logistic spelt as 1 / (1 + e^(-x)), which is the library's logistic since the word it prints
  for 1 denotes the number one. No law of the extended reals beyond that is needed: the two sides apply the same
  operations to the same operands in the same order, so finiteness of the inputs is never used.
  The idealized kernel is the kernel's own text read over the extended reals (no rewrite was applied), so that claim
  is trivial; the three frames are the generated frames and the reference's run.
-/
import proofs.«167529_j84052509982761_1_alg».proof.Defs
import proofs.«167529_j84052509982761_1_alg».proof.Proof.Gen.Kernel
import proofs.«167529_j84052509982761_1_alg».proof.Proof.Gen.Kernel.Skeleton
import proofs.«167529_j84052509982761_1_alg».proof.Proof.Gen.Kernel.Launch
import proofs.«167529_j84052509982761_1_alg».proof.Proof.Gen.Kernel.Points
import proofs.«167529_j84052509982761_1_alg».proof.Proof.Gen.Kernel.Frame
import proofs.«167529_j84052509982761_1_alg».proof.Proof.Gen.KernelIdeal
import proofs.«167529_j84052509982761_1_alg».proof.Proof.Gen.KernelIdeal.Skeleton
import proofs.«167529_j84052509982761_1_alg».proof.Proof.Gen.KernelIdeal.Launch
import proofs.«167529_j84052509982761_1_alg».proof.Proof.Gen.KernelIdeal.Points
import proofs.«167529_j84052509982761_1_alg».proof.Proof.Gen.KernelIdeal.Frame
import proofs.«167529_j84052509982761_1_alg».proof.Proof.Gen.ReferenceIdeal
import proofs.«167529_j84052509982761_1_alg».proof.Proof.Gen.Pre_finite_inputs
import proofs.«167529_j84052509982761_1_alg».proof.Proof.Gen.KernelIdeal.Value
import proofs.«167529_j84052509982761_1_alg».proof.Proof.RefRun
import proofs.«167529_j84052509982761_1_alg».proof.Proof.RefRead
import proofs.«167529_j84052509982761_1_alg».proof.Proof.RefCell
import proofs.«167529_j84052509982761_1_alg».proof.Proof.Blocks
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- Both runs end with the output at the cell of the arguments: the kernel's by its blocks, the reference's by its
    stages, and the arguments agree. -/
theorem algebraic : Cert.algebraic_KernelIdeal_ReferenceIdeal := by
  intro m ρ m' ρ' _ hagree
  refine ⟨fun c => Cert.KernelIdeal.Blocks.G m c, Cert.KernelIdeal.Blocks.run m ρ, ?_⟩
  refine (θ_run Cert.ReferenceIdeal.defs _ _).mono (fun _ h c => ⟨(h c).1.trans ?_, (h c).2⟩)
    (Cert.ReferenceIdeal.RunP.run (F := Ideal) m' ρ')
  obtain ⟨e0, e1, e2, e3, e4, e5, e6, e7, e8⟩ := hagree c
  rw [e0, e1, e2, e3, e4, e5, e6, e7, e8]
  exact (Cert.ReferenceIdeal.ReadP.val_main_v39_eq _ _ _ _ _ _ _ _ _).trans (Cert.ReferenceIdeal.RefCell.ref_eq _ _ _ _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
